-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x800000 32) (main_arg2 : FVec F S64x128 .f32) (main_arg3 : FVec F S128 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x64 : Shape := ⟨2, ![100000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S100000x128 : Shape := ⟨2, ![100000, 128]⟩
abbrev S5000x64 : Shape := ⟨2, ![5000, 64]⟩
abbrev S5000x128 : Shape := ⟨2, ![5000, 128]⟩
abbrev S900000x128 : Shape := ⟨2, ![900000, 128]⟩
abbrev S1x128 : Shape := ⟨2, ![1, 128]⟩
abbrev S900000x64 : Shape := ⟨2, ![900000, 64]⟩
abbrev S1x64 : Shape := ⟨2, ![1, 64]⟩

abbrev nBuf : Space → Nat
  | .hbm => 82
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x800000, .i32⟩
  | .hbm, ⟨8, _⟩ => ⟨S800000, .i32⟩
  | .hbm, ⟨9, _⟩ => ⟨S900000, .i32⟩
  | .hbm, ⟨10, _⟩ => ⟨S1x800000, .i32⟩
  | .hbm, ⟨11, _⟩ => ⟨S800000, .i32⟩
  | .hbm, ⟨12, _⟩ => ⟨S900000, .i32⟩
  | .hbm, ⟨13, _⟩ => ⟨S_, .f32⟩
  | .hbm, ⟨14, _⟩ => ⟨S900000, .f32⟩
  | .hbm, ⟨15, _⟩ => ⟨S_, .f32⟩
  | .hbm, ⟨16, _⟩ => ⟨S100000, .f32⟩
  | .hbm, ⟨17, _⟩ => ⟨S900000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S900000, .i32⟩
  | .hbm, ⟨29, _⟩ => ⟨S900000, .i1⟩
  | .hbm, ⟨30, _⟩ => ⟨S_, .i32⟩
  | .hbm, ⟨31, _⟩ => ⟨S900000, .i32⟩
  | .hbm, ⟨32, _⟩ => ⟨S900000, .i32⟩
  | .hbm, ⟨33, _⟩ => ⟨S900000, .i32⟩
  | .hbm, ⟨34, _⟩ => ⟨S900000x1, .i32⟩
  | .hbm, ⟨35, _⟩ => ⟨S900000, .f32⟩
  | .hbm, ⟨36, _⟩ => ⟨S_, .i32⟩
  | .hbm, ⟨37, _⟩ => ⟨S900000, .i32⟩
  | .hbm, ⟨38, _⟩ => ⟨S900000, .i1⟩
  | .hbm, ⟨39, _⟩ => ⟨S_, .i32⟩
  | .hbm, ⟨40, _⟩ => ⟨S900000, .i32⟩
  | .hbm, ⟨41, _⟩ => ⟨S900000, .i32⟩
  | .hbm, ⟨42, _⟩ => ⟨S900000, .i32⟩
  | .hbm, ⟨43, _⟩ => ⟨S900000x1, .i32⟩
  | .hbm, ⟨44, _⟩ => ⟨S900000, .f32⟩
  | .hbm, ⟨45, _⟩ => ⟨S900000, .f32⟩
  | .hbm, ⟨46, _⟩ => ⟨S100000x128, .f32⟩
  | .hbm, ⟨47, _⟩ => ⟨S_, .i32⟩
  | .hbm, ⟨48, _⟩ => ⟨S900000, .i32⟩
  | .hbm, ⟨49, _⟩ => ⟨S900000, .i1⟩
  | .hbm, ⟨50, _⟩ => ⟨S_, .i32⟩
  | .hbm, ⟨51, _⟩ => ⟨S900000, .i32⟩
  | .hbm, ⟨52, _⟩ => ⟨S900000, .i32⟩
  | .hbm, ⟨53, _⟩ => ⟨S900000, .i32⟩
  | .hbm, ⟨54, _⟩ => ⟨S900000x1, .i32⟩
  | .hbm, ⟨55, _⟩ => ⟨S900000x128, .f32⟩
  | .hbm, ⟨56, _⟩ => ⟨S900000x1, .f32⟩
  | .hbm, ⟨57, _⟩ => ⟨S900000x128, .f32⟩
  | .hbm, ⟨58, _⟩ => ⟨S900000x128, .f32⟩
  | .hbm, ⟨59, _⟩ => ⟨S_, .f32⟩
  | .hbm, ⟨60, _⟩ => ⟨S100000x128, .f32⟩
  | .hbm, ⟨61, _⟩ => ⟨S900000x1, .i32⟩
  | .hbm, ⟨62, _⟩ => ⟨S100000x128, .f32⟩
  | .hbm, ⟨63, _⟩ => ⟨S100000x128, .f32⟩
  | .hbm, ⟨64, _⟩ => ⟨S100000x64, .f32⟩
  | .hbm, ⟨65, _⟩ => ⟨S_, .i32⟩
  | .hbm, ⟨66, _⟩ => ⟨S900000, .i32⟩
  | .hbm, ⟨67, _⟩ => ⟨S900000, .i1⟩
  | .hbm, ⟨68, _⟩ => ⟨S_, .i32⟩
  | .hbm, ⟨69, _⟩ => ⟨S900000, .i32⟩
  | .hbm, ⟨70, _⟩ => ⟨S900000, .i32⟩
  | .hbm, ⟨71, _⟩ => ⟨S900000, .i32⟩
  | .hbm, ⟨72, _⟩ => ⟨S900000x1, .i32⟩
  | .hbm, ⟨73, _⟩ => ⟨S900000x64, .f32⟩
  | .hbm, ⟨74, _⟩ => ⟨S900000x1, .f32⟩
  | .hbm, ⟨75, _⟩ => ⟨S900000x64, .f32⟩
  | .hbm, ⟨76, _⟩ => ⟨S900000x64, .f32⟩
  | .hbm, ⟨77, _⟩ => ⟨S_, .f32⟩
  | .hbm, ⟨78, _⟩ => ⟨S100000x64, .f32⟩
  | .hbm, ⟨79, _⟩ => ⟨S900000x1, .i32⟩
  | .hbm, ⟨80, _⟩ => ⟨S100000x64, .f32⟩
  | .hbm, ⟨81, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  shapeCasts_S5000x64_S5000x64 : S5000x64.ShapeCasts S5000x64
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S5000x64_S64x128_S5000x128_1_0_0_1_n_n_wf : DotDims.WF S5000x64 S64x128 S5000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S5000x128_S128x64_S5000x64_1_0_0_1_n_n_wf : DotDims.WF S5000x128 S128x64 S5000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S100000x128 : Shape := ⟨2, ![100000, 128]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S900000x64 : Shape := ⟨2, ![900000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S100000x64, .f32⟩
  | 1 => ⟨S2x800000, .i32⟩
  | 2 => ⟨S64x128, .f32⟩
  | 3 => ⟨S128, .f32⟩
  | 4 => ⟨S128x64, .f32⟩
  | 5 => ⟨S64, .f32⟩
  | 6 => ⟨S100000, .i32⟩
  | 7 => ⟨S1x800000, .i32⟩
  | 8 => ⟨S800000, .i32⟩
  | 9 => ⟨S900000, .i32⟩
  | 10 => ⟨S1x800000, .i32⟩
  | 11 => ⟨S800000, .i32⟩
  | 12 => ⟨S900000, .i32⟩
  | 13 => ⟨S100000x128, .f32⟩
  | 14 => ⟨S_, .f32⟩
  | 15 => ⟨S900000, .f32⟩
  | 16 => ⟨S_, .f32⟩
  | 17 => ⟨S100000, .f32⟩
  | 18 => ⟨S900000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S900000, .i32⟩
  | 30 => ⟨S900000, .i1⟩
  | 31 => ⟨S_, .i32⟩
  | 32 => ⟨S900000, .i32⟩
  | 33 => ⟨S900000, .i32⟩
  | 34 => ⟨S900000, .i32⟩
  | 35 => ⟨S900000x1, .i32⟩
  | 36 => ⟨S900000, .f32⟩
  | 37 => ⟨S_, .i32⟩
  | 38 => ⟨S900000, .i32⟩
  | 39 => ⟨S900000, .i1⟩
  | 40 => ⟨S_, .i32⟩
  | 41 => ⟨S900000, .i32⟩
  | 42 => ⟨S900000, .i32⟩
  | 43 => ⟨S900000, .i32⟩
  | 44 => ⟨S900000x1, .i32⟩
  | 45 => ⟨S900000, .f32⟩
  | 46 => ⟨S900000, .f32⟩
  | 47 => ⟨S900000x1, .f32⟩
  | 48 => ⟨S_, .i32⟩
  | 49 => ⟨S900000, .i32⟩
  | 50 => ⟨S900000, .i1⟩
  | 51 => ⟨S_, .i32⟩
  | 52 => ⟨S900000, .i32⟩
  | 53 => ⟨S900000, .i32⟩
  | 54 => ⟨S900000, .i32⟩
  | 55 => ⟨S900000x1, .i32⟩
  | 56 => ⟨S900000x128, .f32⟩
  | 57 => ⟨S900000x128, .f32⟩
  | 58 => ⟨S900000x128, .f32⟩
  | 59 => ⟨S_, .f32⟩
  | 60 => ⟨S100000x128, .f32⟩
  | 61 => ⟨S900000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000, .i32⟩
  | 70 => ⟨S1x800000, .i32⟩
  | 71 => ⟨S800000, .i32⟩
  | 72 => ⟨S900000, .i32⟩
  | 73 => ⟨S1x800000, .i32⟩
  | 74 => ⟨S800000, .i32⟩
  | 75 => ⟨S900000, .i32⟩
  | 76 => ⟨S100000x64, .f32⟩
  | 77 => ⟨S_, .f32⟩
  | 78 => ⟨S900000, .f32⟩
  | 79 => ⟨S_, .f32⟩
  | 80 => ⟨S100000, .f32⟩
  | 81 => ⟨S900000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S900000, .i32⟩
  | 93 => ⟨S900000, .i1⟩
  | 94 => ⟨S_, .i32⟩
  | 95 => ⟨S900000, .i32⟩
  | 96 => ⟨S900000, .i32⟩
  | 97 => ⟨S900000, .i32⟩
  | 98 => ⟨S900000x1, .i32⟩
  | 99 => ⟨S900000, .f32⟩
  | 100 => ⟨S_, .i32⟩
  | 101 => ⟨S900000, .i32⟩
  | 102 => ⟨S900000, .i1⟩
  | 103 => ⟨S_, .i32⟩
  | 104 => ⟨S900000, .i32⟩
  | 105 => ⟨S900000, .i32⟩
  | 106 => ⟨S900000, .i32⟩
  | 107 => ⟨S900000x1, .i32⟩
  | 108 => ⟨S900000, .f32⟩
  | 109 => ⟨S900000, .f32⟩
  | 110 => ⟨S900000x1, .f32⟩
  | 111 => ⟨S_, .i32⟩
  | 112 => ⟨S900000, .i32⟩
  | 113 => ⟨S900000, .i1⟩
  | 114 => ⟨S_, .i32⟩
  | 115 => ⟨S900000, .i32⟩
  | 116 => ⟨S900000, .i32⟩
  | 117 => ⟨S900000, .i32⟩
  | 118 => ⟨S900000x1, .i32⟩
  | 119 => ⟨S900000x64, .f32⟩
  | 120 => ⟨S900000x64, .f32⟩
  | 121 => ⟨S900000x64, .f32⟩
  | 122 => ⟨S_, .f32⟩
  | 123 => ⟨S100000x64, .f32⟩
  | 124 => ⟨S900000x1, .i32⟩
  | 125 => ⟨S100000x64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_17 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x128_S100000x128_1_0_0_1_n_n_wf : DotDims.WF S100000x64 S64x128 S100000x128 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x64_S100000x64_1_0_0_1_n_n_wf : DotDims.WF S100000x128 S128x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

class Facts : Prop extends Facts₀ where

variable [Facts]
-- ==== Proof.Graph.lean ====
/-
  The graph side of the two-layer convolution, as pure functions of the edge list: the source and target endpoints with the
  self loops appended, the wrap of a negative index, the symmetric normalisation 1/sqrt(deg src) · 1/sqrt(deg dst) (zero where
  a degree is zero), and the aggregation of a node table along the edges: row `dst r` of the result accumulates
  `norm r · table[src r]`. The aggregation is written twice, with the product's factors in either order; over the
  extended reals the two are one function. `layers` composes the two layers.
-/
import proofs.«159361_j60902636257285_1_alg».proof.Proof.Gen.ReferenceIdeal
import Idealize.ShloMosaic.Lib.ValueIdx

noncomputable section

namespace Cert.Graph

open Cert.ReferenceIdeal Cert.ReferenceIdeal.Gen Idealize.ShloMosaic Idealize.ShloMosaic.TcCoe

variable {F : FTy → Type} [FloatOps F]

/-- The edges' source endpoints (row 0 of the edge list), then one self loop per node. -/
def srcOf (e : (⟨S2x800000, .i32⟩ : BufTy).Contents (Elt F)) : (⟨S900000, .i32⟩ : BufTy).Contents (Elt F) :=
  concatenate S900000 0 [⟨S800000, (shapeCast S800000 (extractStridedSlice S1x800000 ![0, 0] e slices_S2x800000_S1x800000_0_0) shapeCasts_S1x800000_S800000)⟩, ⟨S100000, (iotaInDim S100000 32 0)⟩] concatenates_S800000_S100000_S900000_d0

/-- The edges' target endpoints (row 1 of the edge list), then one self loop per node. -/
def dstOf (e : (⟨S2x800000, .i32⟩ : BufTy).Contents (Elt F)) : (⟨S900000, .i32⟩ : BufTy).Contents (Elt F) :=
  concatenate S900000 0 [⟨S800000, (shapeCast S800000 (extractStridedSlice S1x800000 ![1, 0] e slices_S2x800000_S1x800000_1_0) shapeCasts_S1x800000_S800000)⟩, ⟨S100000, (iotaInDim S100000 32 0)⟩] concatenates_S800000_S100000_S900000_d0

/-- An index list as a column of start indices, a negative index first moved up by the number of nodes. -/
def wrapCol (s : (⟨S900000, .i32⟩ : BufTy).Contents (Elt F)) : (⟨S900000x1, .i32⟩ : BufTy).Contents (Elt F) :=
  broadcastInDim S900000x1 ![0] bcast_S900000_S900000x1_0 (select (cmpi .slt s (broadcastInDim S900000 ![] bcast_S_S900000 (constantI S_ 32 0#32))) (addi s (broadcastInDim S900000 ![] bcast_S_S900000 (constantI S_ 32 100000#32))) s)

/-- An index list as a column of scatter indices, as it is. -/
def col (s : (⟨S900000, .i32⟩ : BufTy).Contents (Elt F)) : (⟨S900000x1, .i32⟩ : BufTy).Contents (Elt F) :=
  broadcastInDim S900000x1 ![0] bcast_S900000_S900000x1_0 s

/-- The in-degree of every node: one unit accumulated per edge at its target. -/
def degOf (d : (⟨S900000, .i32⟩ : BufTy).Contents (Elt F)) : (⟨S100000, .f32⟩ : BufTy).Contents (Elt F) :=
  Host.scatterAdd scatter_S100000_S900000x1_S900000_n_0_0_1 (broadcastInDim S100000 ![] bcast_S_S100000 (constant S_ .f32 0x00000000#32)) (broadcastInDim S900000x1 ![0] bcast_S900000_S900000x1_0 d) (broadcastInDim S900000 ![] bcast_S_S900000 (constant S_ .f32 0x3F800000#32))

/-- 1/sqrt(deg) where the degree is positive, zero elsewhere. -/
def dinvOf (d : (⟨S900000, .i32⟩ : BufTy).Contents (Elt F)) : (⟨S100000, .f32⟩ : BufTy).Contents (Elt F) :=
  select (cmpf (F := F) .ogt (degOf d) (broadcastInDim S100000 ![] bcast_S_S100000 (constant S_ .f32 0x00000000#32))) (Host.rsqrt (degOf d)) (broadcastInDim S100000 ![] bcast_S_S100000 (id (constant S_ .f32 0x00000000#32)))

/-- The edge weights: dinv at the source times dinv at the target. -/
def normOf (e : (⟨S2x800000, .i32⟩ : BufTy).Contents (Elt F)) : (⟨S900000, .f32⟩ : BufTy).Contents (Elt F) :=
  mulf (Host.gather gather_S100000_S900000x1_S900000_n_0_n_n_0_1_1 (dinvOf (dstOf e)) (wrapCol (srcOf e))) (Host.gather gather_S100000_S900000x1_S900000_n_0_n_n_0_1_1 (dinvOf (dstOf e)) (wrapCol (dstOf e)))

/-- The edge weights as a column. -/
def colF (n : (⟨S900000, .f32⟩ : BufTy).Contents (Elt F)) : (⟨S900000x1, .f32⟩ : BufTy).Contents (Elt F) :=
  broadcastInDim S900000x1 ![0] bcast_S900000_S900000x1_0 n

/-- Aggregation of a 128-wide node table along the edges, the weight written as the product's LEFT factor. -/
def agg128 (xw : (⟨S100000x128, .f32⟩ : BufTy).Contents (Elt F)) (s d : (⟨S900000, .i32⟩ : BufTy).Contents (Elt F)) (n : (⟨S900000, .f32⟩ : BufTy).Contents (Elt F)) : (⟨S100000x128, .f32⟩ : BufTy).Contents (Elt F) :=
  Host.scatterAdd scatter_S100000x128_S900000x1_S900000x128_1_0_0_1 (broadcastInDim S100000x128 ![] bcast_S_S100000x128 (constant S_ .f32 0x00000000#32)) (col d) (mulf (broadcastInDim S900000x128 ![0, 1] bcast_S900000x1_S900000x128_0_1 (colF n)) (Host.gather gather_S100000x128_S900000x1_S900000x128_1_0_n_n_0_1_1128 xw (wrapCol s)))

/-- The same aggregation, the weight written as the product's RIGHT factor. -/
def agg128' (xw : (⟨S100000x128, .f32⟩ : BufTy).Contents (Elt F)) (s d : (⟨S900000, .i32⟩ : BufTy).Contents (Elt F)) (n : (⟨S900000, .f32⟩ : BufTy).Contents (Elt F)) : (⟨S100000x128, .f32⟩ : BufTy).Contents (Elt F) :=
  Host.scatterAdd scatter_S100000x128_S900000x1_S900000x128_1_0_0_1 (broadcastInDim S100000x128 ![] bcast_S_S100000x128 (constant S_ .f32 0x00000000#32)) (col d) (mulf (Host.gather gather_S100000x128_S900000x1_S900000x128_1_0_n_n_0_1_1128 xw (wrapCol s)) (broadcastInDim S900000x128 ![0, 1] bcast_S900000x1_S900000x128_0_1 (colF n)))

/-- Aggregation of a 64-wide node table along the edges, the weight written as the product's LEFT factor. -/
def agg64 (xw : (⟨S100000x64, .f32⟩ : BufTy).Contents (Elt F)) (s d : (⟨S900000, .i32⟩ : BufTy).Contents (Elt F)) (n : (⟨S900000, .f32⟩ : BufTy).Contents (Elt F)) : (⟨S100000x64, .f32⟩ : BufTy).Contents (Elt F) :=
  Host.scatterAdd scatter_S100000x64_S900000x1_S900000x64_1_0_0_1 (broadcastInDim S100000x64 ![] bcast_S_S100000x64 (constant S_ .f32 0x00000000#32)) (col d) (mulf (broadcastInDim S900000x64 ![0, 1] bcast_S900000x1_S900000x64_0_1 (colF n)) (Host.gather gather_S100000x64_S900000x1_S900000x64_1_0_n_n_0_1_164 xw (wrapCol s)))

/-- The same aggregation, the weight written as the product's RIGHT factor. -/
def agg64' (xw : (⟨S100000x64, .f32⟩ : BufTy).Contents (Elt F)) (s d : (⟨S900000, .i32⟩ : BufTy).Contents (Elt F)) (n : (⟨S900000, .f32⟩ : BufTy).Contents (Elt F)) : (⟨S100000x64, .f32⟩ : BufTy).Contents (Elt F) :=
  Host.scatterAdd scatter_S100000x64_S900000x1_S900000x64_1_0_0_1 (broadcastInDim S100000x64 ![] bcast_S_S100000x64 (constant S_ .f32 0x00000000#32)) (col d) (mulf (Host.gather gather_S100000x64_S900000x1_S900000x64_1_0_n_n_0_1_164 xw (wrapCol s)) (broadcastInDim S900000x64 ![0, 1] bcast_S900000x1_S900000x64_0_1 (colF n)))

/-- Over the extended reals a product does not depend on the order of its factors, so the two spellings agree. -/
theorem agg128'_eq (xw : (⟨S100000x128, .f32⟩ : BufTy).Contents (Elt Ideal)) (s d : (⟨S900000, .i32⟩ : BufTy).Contents (Elt Ideal)) (n : (⟨S900000, .f32⟩ : BufTy).Contents (Elt Ideal)) :
    agg128' (F := Ideal) xw s d n = agg128 xw s d n := by
  unfold agg128' agg128
  refine congrArg _ ?_
  funext i
  exact mul_comm _ _

theorem agg64'_eq (xw : (⟨S100000x64, .f32⟩ : BufTy).Contents (Elt Ideal)) (s d : (⟨S900000, .i32⟩ : BufTy).Contents (Elt Ideal)) (n : (⟨S900000, .f32⟩ : BufTy).Contents (Elt Ideal)) :
    agg64' (F := Ideal) xw s d n = agg64 xw s d n := by
  unfold agg64' agg64
  refine congrArg _ ?_
  funext i
  exact mul_comm _ _

/-- The two layers as the host program spells them: product, aggregation, bias (and clamp), twice. -/
def layers (x : (⟨S100000x64, .f32⟩ : BufTy).Contents (Elt F)) (e : (⟨S2x800000, .i32⟩ : BufTy).Contents (Elt F))
    (w1 : (⟨S64x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) : (⟨S100000x64, .f32⟩ : BufTy).Contents (Elt F) :=
  addf (agg64 (Host.dotGeneral dot_S100000x128_S128x64_S100000x64_1_0_0_1_n_n none
      (maximumf (addf (agg128 (Host.dotGeneral dot_S100000x64_S64x128_S100000x128_1_0_0_1_n_n none x w1) (srcOf e) (dstOf e) (normOf e))
          (broadcastInDim S100000x128 ![0, 1] bcast_S1x128_S100000x128_0_1 (broadcastInDim S1x128 ![1] bcast_S128_S1x128_1 b1)))
        (broadcastInDim S100000x128 ![] bcast_S_S100000x128 (constant S_ .f32 0x00000000#32))) w2) (srcOf e) (dstOf e) (normOf e))
    (broadcastInDim S100000x64 ![0, 1] bcast_S1x64_S100000x64_0_1 (broadcastInDim S1x64 ![1] bcast_S64_S1x64_1 b2))

end Cert.Graph

end
-- ==== Proof.HostValue.lean ====
/-
  What the host operations between the launches compute, stretch by stretch, for ANY contents `V` the stretch starts from:
  the endpoints and the edge weights (before the first launch), the aggregation of the first product (between the first and
  the second launch), the aggregation of the second product (before the last launch), each as the graph functions of
  `Cert.Graph`; and the buffers a stretch leaves alone.
-/
import proofs.«159361_j60902636257285_1_alg».proof.Proof.Gen.KernelIdeal.Frame
import proofs.«159361_j60902636257285_1_alg».proof.Proof.Graph
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem
open Cert.Graph

variable {F : FTy → Type} [FloatOps F]
variable (V : Valuation τ sig (Elt F))

/-! ## Before the first launch: endpoints, degrees, weights -/

/-- The source endpoints with the self loops. -/
theorem s0_src : StableHlo.after hostOps0 V (Proc.devRef .tc main_v3) = srcOf (V (Proc.devRef .tc main_arg1)) := by
  after_results
  rfl

/-- The target endpoints with the self loops. -/
theorem s0_dst : StableHlo.after hostOps0 V (Proc.devRef .tc main_v6) = dstOf (V (Proc.devRef .tc main_arg1)) := by
  after_results
  rfl

/-- Where the degree is positive. -/
theorem s0_pos : StableHlo.after hostOps0 V (Proc.devRef .tc main_v12)
    = cmpf (F := F) .ogt (degOf (dstOf (V (Proc.devRef .tc main_arg1)))) (broadcastInDim Cert.ReferenceIdeal.S100000 ![] Cert.ReferenceIdeal.Gen.bcast_S_S100000 (constant Cert.ReferenceIdeal.S_ .f32 0x00000000#32)) := by
  after_results
  rfl

/-- The reciprocal square root of the degree. -/
theorem s0_rsqrt : StableHlo.after hostOps0 V (Proc.devRef .tc main_v13) = Host.rsqrt (degOf (dstOf (V (Proc.devRef .tc main_arg1)))) := by
  after_results
  rfl

/-- The zero the weights take where the degree is zero. -/
theorem s0_zero : StableHlo.after hostOps0 V (Proc.devRef .tc main_cst_2) = constant Cert.ReferenceIdeal.S_ .f32 0x00000000#32 := by
  after_results

/-- The select between the reciprocal square root and zero. -/
theorem s1_dinv : StableHlo.after hostOps0_1 V (Proc.devRef .tc main_v14)
    = select (V (Proc.devRef .tc main_v12)) (V (Proc.devRef .tc main_v13)) (broadcastInDim Cert.ReferenceIdeal.S100000 ![] Cert.ReferenceIdeal.Gen.bcast_S_S100000 (id (V (Proc.devRef .tc main_cst_2)))) := by
  after_results
  rfl

set_option maxHeartbeats 4000000 in
/-- The edge weights from the per-node factors and the two endpoint lists. -/
theorem s2_norm : StableHlo.after hostOps0_2 V (Proc.devRef .tc main_v29)
    = mulf (Host.gather Cert.ReferenceIdeal.gather_S100000_S900000x1_S900000_n_0_n_n_0_1_1 (V (Proc.devRef .tc main_v14)) (wrapCol (V (Proc.devRef .tc main_v3))))
        (Host.gather Cert.ReferenceIdeal.gather_S100000_S900000x1_S900000_n_0_n_n_0_1_1 (V (Proc.devRef .tc main_v14)) (wrapCol (V (Proc.devRef .tc main_v6)))) := by
  after_results_simp
  rfl

/-! ## Between the launches: the aggregations -/

set_option maxHeartbeats 4000000 in
/-- Layer 1's aggregation of the first product along the edges (the weight the product's right factor). -/
theorem s3_agg : StableHlo.after hostOps1 V (Proc.devRef .tc main_v43)
    = agg128' (V (Proc.devRef .tc main_v30)) (V (Proc.devRef .tc main_v3)) (V (Proc.devRef .tc main_v6)) (V (Proc.devRef .tc main_v29)) := by
  after_results_simp
  rfl

set_option maxHeartbeats 4000000 in
/-- Layer 2's aggregation of the second product along the edges (the weight the product's right factor). -/
theorem s4_agg : StableHlo.after hostOps3 V (Proc.devRef .tc main_v58)
    = agg64' (V (Proc.devRef .tc main_v45)) (V (Proc.devRef .tc main_v3)) (V (Proc.devRef .tc main_v6)) (V (Proc.devRef .tc main_v29)) := by
  after_results_simp
  rfl

/-! ## What each stretch leaves alone -/

set_option maxHeartbeats 1000000

theorem k0_arg0 : StableHlo.after hostOps0 V (Proc.devRef .tc main_arg0) = V (Proc.devRef .tc main_arg0) := by after_results_simp
theorem k0_arg1 : StableHlo.after hostOps0 V (Proc.devRef .tc main_arg1) = V (Proc.devRef .tc main_arg1) := by after_results_simp
theorem k0_arg2 : StableHlo.after hostOps0 V (Proc.devRef .tc main_arg2) = V (Proc.devRef .tc main_arg2) := by after_results_simp
theorem k0_arg3 : StableHlo.after hostOps0 V (Proc.devRef .tc main_arg3) = V (Proc.devRef .tc main_arg3) := by after_results_simp
theorem k0_arg4 : StableHlo.after hostOps0 V (Proc.devRef .tc main_arg4) = V (Proc.devRef .tc main_arg4) := by after_results_simp
theorem k0_arg5 : StableHlo.after hostOps0 V (Proc.devRef .tc main_arg5) = V (Proc.devRef .tc main_arg5) := by after_results_simp
theorem k1_arg0 : StableHlo.after hostOps0_1 V (Proc.devRef .tc main_arg0) = V (Proc.devRef .tc main_arg0) := by after_results_simp
theorem k1_arg2 : StableHlo.after hostOps0_1 V (Proc.devRef .tc main_arg2) = V (Proc.devRef .tc main_arg2) := by after_results_simp
theorem k1_arg3 : StableHlo.after hostOps0_1 V (Proc.devRef .tc main_arg3) = V (Proc.devRef .tc main_arg3) := by after_results_simp
theorem k1_arg4 : StableHlo.after hostOps0_1 V (Proc.devRef .tc main_arg4) = V (Proc.devRef .tc main_arg4) := by after_results_simp
theorem k1_arg5 : StableHlo.after hostOps0_1 V (Proc.devRef .tc main_arg5) = V (Proc.devRef .tc main_arg5) := by after_results_simp
theorem k1_v3 : StableHlo.after hostOps0_1 V (Proc.devRef .tc main_v3) = V (Proc.devRef .tc main_v3) := by after_results_simp
theorem k1_v6 : StableHlo.after hostOps0_1 V (Proc.devRef .tc main_v6) = V (Proc.devRef .tc main_v6) := by after_results_simp
theorem k2_arg0 : StableHlo.after hostOps0_2 V (Proc.devRef .tc main_arg0) = V (Proc.devRef .tc main_arg0) := by after_results_simp
theorem k2_arg2 : StableHlo.after hostOps0_2 V (Proc.devRef .tc main_arg2) = V (Proc.devRef .tc main_arg2) := by after_results_simp
theorem k2_arg3 : StableHlo.after hostOps0_2 V (Proc.devRef .tc main_arg3) = V (Proc.devRef .tc main_arg3) := by after_results_simp
theorem k2_arg4 : StableHlo.after hostOps0_2 V (Proc.devRef .tc main_arg4) = V (Proc.devRef .tc main_arg4) := by after_results_simp
theorem k2_arg5 : StableHlo.after hostOps0_2 V (Proc.devRef .tc main_arg5) = V (Proc.devRef .tc main_arg5) := by after_results_simp
theorem k2_v3 : StableHlo.after hostOps0_2 V (Proc.devRef .tc main_v3) = V (Proc.devRef .tc main_v3) := by after_results_simp
theorem k2_v6 : StableHlo.after hostOps0_2 V (Proc.devRef .tc main_v6) = V (Proc.devRef .tc main_v6) := by after_results_simp
theorem k3_arg3 : StableHlo.after hostOps1 V (Proc.devRef .tc main_arg3) = V (Proc.devRef .tc main_arg3) := by after_results_simp
theorem k3_arg4 : StableHlo.after hostOps1 V (Proc.devRef .tc main_arg4) = V (Proc.devRef .tc main_arg4) := by after_results_simp
theorem k3_arg5 : StableHlo.after hostOps1 V (Proc.devRef .tc main_arg5) = V (Proc.devRef .tc main_arg5) := by after_results_simp
theorem k3_v3 : StableHlo.after hostOps1 V (Proc.devRef .tc main_v3) = V (Proc.devRef .tc main_v3) := by after_results_simp
theorem k3_v6 : StableHlo.after hostOps1 V (Proc.devRef .tc main_v6) = V (Proc.devRef .tc main_v6) := by after_results_simp
theorem k3_v29 : StableHlo.after hostOps1 V (Proc.devRef .tc main_v29) = V (Proc.devRef .tc main_v29) := by after_results_simp
theorem k4_arg5 : StableHlo.after hostOps3 V (Proc.devRef .tc main_arg5) = V (Proc.devRef .tc main_arg5) := by after_results_simp

end Cert.KernelIdeal.HostValue

end
-- ==== Proof.Spec.lean ====
/-
  The four dense stages of the two-layer graph convolution, each as ONE whole-array function over the extended reals,
  index by index. A row of the node table is multiplied by a weight matrix (entry (r, q) is the sum over k of
  x[r, k] · w[k, q]); a bias row is added to every row, with or without the clamp at zero. The row tiling of the
  launches (20 tiles of 5000 rows) does not appear: every entry depends on its own row only.
-/
import Idealize.ShloMosaic.PureOps.Ideal
import Idealize.ShloMosaic.Lib.ValueIdx

noncomputable section

open scoped BigOperators

namespace Cert.Spec

open Idealize.ShloMosaic Idealize.ShloMosaic.ValueIdx

abbrev T100000x64 : Shape := ⟨2, ![100000, 64]⟩
abbrev T100000x128 : Shape := ⟨2, ![100000, 128]⟩
abbrev T64x128 : Shape := ⟨2, ![64, 128]⟩
abbrev T128x64 : Shape := ⟨2, ![128, 64]⟩
abbrev T128 : Shape := ⟨1, ![128]⟩
abbrev T64 : Shape := ⟨1, ![64]⟩

/-- Layer 1's product: entry (r, q) is the sum over the 64 input features k of x[r, k] · w[k, q]. -/
def rows64x128 (x : T100000x64.Idx → EReal) (w : T64x128.Idx → EReal) : T100000x128.Idx → EReal :=
  fun i => ∑ k : Fin 64, x (ix2 (⟨(i 0).val, (i 0).isLt⟩ : Fin 100000) k) * w (ix2 k (⟨(i 1).val, (i 1).isLt⟩ : Fin 128))

/-- Layer 2's product: entry (r, q) is the sum over the 128 hidden features k of h[r, k] · w[k, q]. -/
def rows128x64 (h : T100000x128.Idx → EReal) (w : T128x64.Idx → EReal) : T100000x64.Idx → EReal :=
  fun i => ∑ k : Fin 128, h (ix2 (⟨(i 0).val, (i 0).isLt⟩ : Fin 100000) k) * w (ix2 k (⟨(i 1).val, (i 1).isLt⟩ : Fin 64))

/-- Layer 1's epilogue: the bias row added to every row, then the clamp at zero. -/
def biasRelu128 (a : T100000x128.Idx → EReal) (b : T128.Idx → EReal) : T100000x128.Idx → EReal :=
  fun i => max (a i + b (ix1 (⟨(i 1).val, (i 1).isLt⟩ : Fin 128))) 0

/-- Layer 2's epilogue: the bias row added to every row. -/
def bias64 (a : T100000x64.Idx → EReal) (b : T64.Idx → EReal) : T100000x64.Idx → EReal :=
  fun i => a i + b (ix1 (⟨(i 1).val, (i 1).isLt⟩ : Fin 64))

end Cert.Spec

end
-- ==== Proof.Layers.lean ====
/-
  The whole computation over the extended reals, twice: with each aggregation's weight as the product's right factor (the
  order the program with the launches uses) and as its left factor (the order the host program uses). The dense stages are
  the whole-array functions of the specification; the two spellings are one function because a product of extended reals
  does not depend on the order of its factors.
-/
import proofs.«159361_j60902636257285_1_alg».proof.Proof.Graph
import proofs.«159361_j60902636257285_1_alg».proof.Proof.Spec

noncomputable section

namespace Cert.Graph

open Cert.ReferenceIdeal Cert.ReferenceIdeal.Gen Idealize.ShloMosaic Idealize.ShloMosaic.TcCoe

/-- Both layers, each aggregation's weight the right factor. -/
def twoLayers' (x : (⟨S100000x64, .f32⟩ : BufTy).Contents (Elt Ideal)) (e : (⟨S2x800000, .i32⟩ : BufTy).Contents (Elt Ideal)) (w1 : (⟨S64x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) : (⟨S100000x64, .f32⟩ : BufTy).Contents (Elt Ideal) :=
  Cert.Spec.bias64 (agg64' (Cert.Spec.rows128x64 (Cert.Spec.biasRelu128 (agg128' (Cert.Spec.rows64x128 x w1) (srcOf e) (dstOf e) (normOf e)) b1) w2)
    (srcOf e) (dstOf e) (normOf e)) b2

/-- Both layers, each aggregation's weight the left factor. -/
def twoLayers (x : (⟨S100000x64, .f32⟩ : BufTy).Contents (Elt Ideal)) (e : (⟨S2x800000, .i32⟩ : BufTy).Contents (Elt Ideal)) (w1 : (⟨S64x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) : (⟨S100000x64, .f32⟩ : BufTy).Contents (Elt Ideal) :=
  Cert.Spec.bias64 (agg64 (Cert.Spec.rows128x64 (Cert.Spec.biasRelu128 (agg128 (Cert.Spec.rows64x128 x w1) (srcOf e) (dstOf e) (normOf e)) b1) w2)
    (srcOf e) (dstOf e) (normOf e)) b2

/-- The two spellings are one function. -/
theorem twoLayers'_eq (x : (⟨S100000x64, .f32⟩ : BufTy).Contents (Elt Ideal)) (e : (⟨S2x800000, .i32⟩ : BufTy).Contents (Elt Ideal)) (w1 : (⟨S64x128, .f32⟩ : BufTy).Contents (Elt Ideal)) (b1 : (⟨S128, .f32⟩ : BufTy).Contents (Elt Ideal))
    (w2 : (⟨S128x64, .f32⟩ : BufTy).Contents (Elt Ideal)) (b2 : (⟨S64, .f32⟩ : BufTy).Contents (Elt Ideal)) : twoLayers' x e w1 b1 w2 b2 = twoLayers x e w1 b1 w2 b2 := by
  unfold twoLayers' twoLayers
  rw [agg128'_eq, agg64'_eq]

end Cert.Graph

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Region0.lean ====
/-
  The first dense stage: the node table, cut into 20 tiles of 5000 rows, times the 64 × 128 weight matrix. Each tile's
  product is written to the same rows of the result, so the whole result is one function of the two arrays: entry
  (r, q) is the sum over k of x[r, k] · w[k, q]. The narrowing of the operands to a 16-bit format before the product
  is the identity over the extended reals.
-/
import proofs.«159361_j60902636257285_1_alg».proof.Proof.Gen.KernelIdeal.Frame
import proofs.«159361_j60902636257285_1_alg».proof.Proof.Spec
import proofs.«159361_j60902636257285_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The corner (0, 0) of a tile is the zero offset. -/
theorem corner_zero : (![0, 0] : Fin 2 → Nat) = fun _ => 0 := funext fun a => by fin_cases a <;> rfl

/-- The block indices over the 20 tiles: tile t of the node table and of the result is the block (t, 0); the weight
    matrix is one block, (0, 0), at every tile. -/
theorem tile_index : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- A tile's product at the entry (p, q): the sum over the 64 contracted coordinates k of x0 (p, k) · x1 (k, q). -/
theorem tile_product_apply (x0 : Vec Ideal S5000x64 .f32) (x1 : Vec Ideal S64x128 .f32) (p : Fin 5000) (q : Fin 128) :
    k0_pay1 x0 x1 (ix2 p q) = ∑ k : Fin 64, x0 (ix2 p k) * x1 (ix2 k q) := by
  unfold k0_pay1
  exact RowDims.matmul_plain_zero_apply (M := 5000) (K := 64) (N := 128) none
    (truncf .bf16 x0 bitsLt_bf16_f32) (truncf .bf16 x1 bitsLt_bf16_f32) p q

/-- Tile t of the node table at (p, k) is the table at row t · 5000 + p, column k. -/
theorem table_tile_apply (c : Dev nD) (t : Fin cfg0.N) (p : Fin 5000) (k : Fin 64) (r : Fin 100000)
    (hr : r.val = t.val * 5000 + p.val) :
    (iblk0 V c 0 t : Vec Ideal S5000x64 .f32) (ix2 p k) = (V c main_arg0 : S100000x64.Idx → EReal) (ix2 r k) := by
  obtain ⟨-, -, e0, e1, -, -⟩ := tile_index t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 64 + 1 * k.val = k.val; rw [e1]; omega

/-- The weight matrix's one block at (k, q) is the matrix at (k, q), at every tile. -/
theorem weights_tile_apply (c : Dev nD) (t : Fin cfg0.N) (k : Fin 64) (q : Fin 128) :
    (iblk0 V c 1 t : Vec Ideal S64x128 .f32) (ix2 k q) = (V c main_arg2 : S64x128.Idx → EReal) (ix2 k q) := by
  obtain ⟨-, -, -, -, e0, e1⟩ := tile_index t
  unfold iblk0
  rw [View.read_apply]
  show V c main_arg2 _ = V c main_arg2 _
  congr 1
  funext a
  apply Fin.ext
  match a with
  | ⟨0, _⟩ => show win0_1.index t (0 : Fin 2) * 64 + 1 * k.val = k.val; rw [e0]; omega
  | ⟨1, _⟩ => show win0_1.index t (1 : Fin 2) * 128 + 1 * q.val = q.val; rw [e1]; omega

/-- WHAT TILE t WRITES BACK is tile t of the whole product of the two arrays as the region finds them. -/
theorem flushed_eq (c : Dev nD) (t : Fin cfg0.N) :
    (dat0 V c).flushed 2 t
      = ((cfg0.win 2).blk t).view.read (Elt Ideal) (Cert.Spec.rows64x128 (V c main_arg0) (V c main_arg2)) := by
  show (cfg0.win 2).cut (grid0.coords t) ((dat0 V c).after 2 t) = _
  rw [after0_2]
  unfold out0_2
  rw [View.canon_unit_zero corner_zero]
  simp only [View.ld_unit_zero (S := S5000x64) corner_zero, View.ld_unit_zero (S := S64x128) corner_zero]
  obtain ⟨e0, e1, -, -, -, -⟩ := tile_index t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q)
    = Cert.Spec.rows64x128 (V c main_arg0) (V c main_arg2) (((cfg0.win 2).blk t).view.emb (ix2 p q))
  refine (tile_product_apply _ _ p q).trans ?_
  unfold Cert.Spec.rows64x128
  refine Finset.sum_congr rfl fun k _ => ?_
  -- the entry's row in the result is t · 5000 + p, its column q
  have hrow : ((((cfg0.win 2).blk t).view.emb (ix2 p q)) 0).val = t.val * 5000 + p.val := by
    show win0_2.index t (0 : Fin 2) * 5000 + 1 * p.val = _
    rw [e0]; omega
  have hcol : ((((cfg0.win 2).blk t).view.emb (ix2 p q)) 1).val = q.val := by
    show win0_2.index t (1 : Fin 2) * 128 + 1 * q.val = _
    rw [e1]; omega
  rw [table_tile_apply V c t p k ⟨_, ((((cfg0.win 2).blk t).view.emb (ix2 p q)) 0).isLt⟩ hrow,
    weights_tile_apply V c t k q]
  have hq : (⟨((((cfg0.win 2).blk t).view.emb (ix2 p q)) 1).val, ((((cfg0.win 2).blk t).view.emb (ix2 p q)) 1).isLt⟩ : Fin 128) = q :=
    Fin.ext hcol
  rw [hq]

/-- A row-column pair of the result is in tile t iff each coordinate is in the tile's range on its axis. -/
theorem mem_tile (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- THE TILES COVER THE RESULT: row r is in tile r / 5000, and every tile is written back. -/
theorem tiles_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by show (i 0).val / 5000 < 20; omega⟩, rfl⟩
  obtain ⟨e0, e1, -, -, -, -⟩ := tile_index t
  refine ⟨t, flush0_2 t, ?_⟩
  rw [mem_tile]
  intro a
  match a with
  | ⟨0, _⟩ =>
    show win0_2.index t (0 : Fin 2) * 5000 ≤ (i 0).val ∧ (i 0).val < win0_2.index t (0 : Fin 2) * 5000 + 5000
    rw [e0, ht]; omega
  | ⟨1, _⟩ =>
    show win0_2.index t (1 : Fin 2) * 128 ≤ (i 1).val ∧ (i 1).val < win0_2.index t (1 : Fin 2) * 128 + 128
    rw [e1]; omega

/-- THE RESULT after the 20 tiles: the whole product of the node table and the weight matrix, entry by entry. -/
theorem final0 (c : Dev nD) : (dat0 V c).arrAt 2 cfg0.N = Cert.Spec.rows64x128 (V c main_arg0) (V c main_arg2) :=
  (dat0 V c).arrAt_eq_of_cover 2 (Cert.Spec.rows64x128 (V c main_arg0) (V c main_arg2))
    (fun t _ => flushed_eq V c t) tiles_cover

end Cert.KernelIdeal.Region0

end
-- ==== Proof.Region1.lean ====
/-
  Layer 1's epilogue, as the launch computes it: the 100000 rows are cut into 20 tiles of 5000 rows; at each tile the
  body adds the one bias row to every row of the tile and clamps at zero. Every tile is written back once and the
  tiles fill the array, so the array the launch leaves is the whole-array function "bias added to every row, clamped at
  zero" of the array it found and of the bias row.
-/
import proofs.«159361_j60902636257285_1_alg».proof.Proof.Gen.KernelIdeal.Frame
import proofs.«159361_j60902636257285_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body at one entry of a tile -/

theorem zero_offset2 : (![0, 0] : Fin 2 → Nat) = fun _ => 0 := funext fun a => by fin_cases a <;> rfl

theorem zero_offset1 : (![0] : Fin 1 → Nat) = fun _ => 0 := funext fun a => by fin_cases a; rfl

/-- Entry (p, q) of what the body stores: the tile's entry plus the bias row's entry q, clamped at zero. -/
theorem body_apply (b : Vec Ideal S128 .f32) (a : Vec Ideal S5000x128 .f32) (p : Fin 5000) (q : Fin 128) :
    k1_pay1 b a (ix2 p q) = max (a (ix2 p q) + b (ix1 q)) 0 := by
  unfold k1_pay1
  show max (shapeCast S5000x128 a shapeCasts_S5000x128_S5000x128 (ix2 p q)
      + broadcastTo S5000x128 (shapeCast S1x128 b shapeCasts_S128_S1x128) broadcasts_S1x128_S5000x128 (ix2 p q))
      (Ideal.ofBits .f32 0x00000000#32) = _
  rw [shapeCast_self, broadcastTo_1b_ab_apply, shapeCast_a_1a_apply, Ideal.ofBits_zero_f32]

/-- The same at any index of the tile, the bias row read at the index's column. -/
theorem body_apply_idx (b : Vec Ideal S128 .f32) (a : Vec Ideal S5000x128 .f32) (j : S5000x128.Idx) :
    k1_pay1 b a j = max (a j + b (ix1 (⟨(j 1).val, (j 1).isLt⟩ : Fin 128))) 0 := by
  obtain ⟨p, q, rfl⟩ : ∃ (p : Fin 5000) (q : Fin 128), j = ix2 p q := ⟨j 0, j 1, eq_ix2 j⟩
  exact body_apply b a p q

/-! ## Where each tile sits -/

/-- The index maps over the 20 tiles: the node rows' tile and the output's tile are tile t of the rows, all columns;
    the bias row is read whole at every tile. -/
theorem tile_index : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 1) = 0 :=
  (by decide +kernel : ∀ t : Fin grid1.N, _)

/-- Every one of the 20 row tiles is some point's. -/
theorem tile_onto : ∀ k : Fin 20, ∃ t : Fin cfg1.N, win1_2.index t (0 : Fin 2) = k.val ∧ win1_2.index t (1 : Fin 2) = 0 :=
  (by decide +kernel : ∀ k : Fin 20, ∃ t : Fin grid1.N, win1_2.index t (0 : Fin 2) = k.val ∧ win1_2.index t (1 : Fin 2) = 0)

/-- Tile t of the two arrays through the body, at an index of the tile, is the whole-array function at that index's
    place in the array: the node rows' tile and the output's tile sit at the same rows, and the bias row is whole. -/
theorem tile_apply (A : S100000x128.Idx → EReal) (B : S128.Idx → EReal) (t : Fin cfg1.N) (j : S5000x128.Idx) :
    k1_pay1 (F := Ideal) (fun k => B (((cfg1.win 1).blk t).view.emb k)) (fun k => A (((cfg1.win 0).blk t).view.emb k)) j
      = Cert.Spec.biasRelu128 A B (((cfg1.win 2).blk t).view.emb j) := by
  obtain ⟨e0, e1, e2, e3, e4⟩ := tile_index t
  refine (body_apply_idx _ _ j).trans ?_
  unfold Cert.Spec.biasRelu128
  show max (A (((cfg1.win 0).blk t).view.emb j) + B (((cfg1.win 1).blk t).view.emb (ix1 (⟨(j 1).val, (j 1).isLt⟩ : Fin 128)))) 0
    = max (A (((cfg1.win 2).blk t).view.emb j) + B (ix1 (⟨((((cfg1.win 2).blk t).view.emb j) 1).val, ((((cfg1.win 2).blk t).view.emb j) 1).isLt⟩ : Fin 128))) 0
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix1 (⟨(j 1).val, (j 1).isLt⟩ : Fin 128))
      = ix1 (⟨((((cfg1.win 2).blk t).view.emb j) 1).val, ((((cfg1.win 2).blk t).view.emb j) 1).isLt⟩ : Fin 128) := by
    funext a; apply Fin.ext
    match a with
    | ⟨0, _⟩ => show win1_1.index t (0 : Fin 1) * 128 + 1 * (j 1).val = win1_2.index t (1 : Fin 2) * 128 + 1 * (j 1).val; omega
  rw [h0, h1]

/-- WHAT TILE t WRITES BACK is tile t of the whole-array function of the arrays the launch finds. -/
theorem flushed_eq (c : Dev nD) (t : Fin cfg1.N) :
    (dat1 V c).flushed 2 t = ((cfg1.win 2).blk t).view.read (Elt Ideal) (Cert.Spec.biasRelu128 (V c main_v43) (V c main_arg3)) := by
  show (cfg1.win 2).cut (grid1.coords t) ((dat1 V c).after 2 t) = _
  rw [after1_2]
  unfold out1_2
  rw [View.canon_unit_zero zero_offset2]
  simp only [View.ld_unit_zero (S := S5000x128) zero_offset2, View.ld_unit_zero (S := S128) zero_offset1]
  funext j
  exact tile_apply (V c main_v43) (V c main_arg3) t j

/-! ## The tiles fill the array -/

/-- A row-and-column index is in tile t iff each coordinate is in the tile's range on its axis. -/
theorem mem_tile (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Row r is in tile r / 5000, and every tile is written back. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, q0, q1⟩ := tile_onto ⟨(i 0).val / 5000, by omega⟩
  have q0' : win1_2.index t (0 : Fin 2) = (i 0).val / 5000 := q0
  refine ⟨t, flush1_2 t, ?_⟩
  rw [mem_tile]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- THE ARRAY after the launch: the bias row added to every row of the array it found, clamped at zero. -/
theorem final1 (c : Dev nD) : (dat1 V c).arrAt 2 cfg1.N = Cert.Spec.biasRelu128 (V c main_v43) (V c main_arg3) :=
  (dat1 V c).arrAt_eq_of_cover 2 (Cert.Spec.biasRelu128 (V c main_v43) (V c main_arg3)) (fun t _ => flushed_eq V c t) cover

end Cert.KernelIdeal.Region1

end
-- ==== Proof.Region2.lean ====
/-
  The second dense stage: the hidden table, cut into 20 tiles of 5000 rows, times the 128 × 64 weight matrix. Each
  tile's product is written to the same rows of the result, so the whole result is one function of the two arrays:
  entry (r, q) is the sum over k of h[r, k] · w[k, q]. The narrowing of the operands to a 16-bit format before the
  product is the identity over the extended reals, and so is the reshaping of a tile to its own shape.
-/
import proofs.«159361_j60902636257285_1_alg».proof.Proof.Gen.KernelIdeal.Frame
import proofs.«159361_j60902636257285_1_alg».proof.Proof.Spec
import proofs.«159361_j60902636257285_1_alg».proof.Proof.LibRowDims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The corner (0, 0) of a tile is the zero offset. -/
theorem corner_zero : (![0, 0] : Fin 2 → Nat) = fun _ => 0 := funext fun a => by fin_cases a <;> rfl

/-- The block indices over the 20 tiles: tile t of the hidden table and of the result is the block (t, 0); the weight
    matrix is one block, (0, 0), at every tile. -/
theorem tile_index : ∀ t : Fin cfg2.N, win2_2.index t (0 : Fin 2) = t.val ∧ win2_2.index t (1 : Fin 2) = 0
    ∧ win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, _)

/-- A tile's product at the entry (p, q): the sum over the 128 contracted coordinates k of x0 (p, k) · x1 (k, q). -/
theorem tile_product_apply (x0 : Vec Ideal S5000x128 .f32) (x1 : Vec Ideal S128x64 .f32) (p : Fin 5000) (q : Fin 64) :
    k2_pay1 x0 x1 (ix2 p q) = ∑ k : Fin 128, x0 (ix2 p k) * x1 (ix2 k q) := by
  unfold k2_pay1
  rw [shapeCast_self]
  exact RowDims.matmul_plain_zero_apply (M := 5000) (K := 128) (N := 64) none
    (truncf .bf16 x0 bitsLt_bf16_f32) (truncf .bf16 x1 bitsLt_bf16_f32) p q

/-- Tile t of the hidden table at (p, k) is the table at row t · 5000 + p, column k. -/
theorem table_tile_apply (c : Dev nD) (t : Fin cfg2.N) (p : Fin 5000) (k : Fin 128) (r : Fin 100000)
    (hr : r.val = t.val * 5000 + p.val) :
    (iblk2 V c 0 t : Vec Ideal S5000x128 .f32) (ix2 p k) = (V c main_v44 : S100000x128.Idx → EReal) (ix2 r k) := by
  obtain ⟨-, -, e0, e1, -, -⟩ := tile_index t
  unfold iblk2
  rw [View.read_apply]
  show V c main_v44 _ = V c main_v44 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The weight matrix's one block at (k, q) is the matrix at (k, q), at every tile. -/
theorem weights_tile_apply (c : Dev nD) (t : Fin cfg2.N) (k : Fin 128) (q : Fin 64) :
    (iblk2 V c 1 t : Vec Ideal S128x64 .f32) (ix2 k q) = (V c main_arg4 : S128x64.Idx → EReal) (ix2 k q) := by
  obtain ⟨-, -, -, -, e0, e1⟩ := tile_index t
  unfold iblk2
  rw [View.read_apply]
  show V c main_arg4 _ = V c main_arg4 _
  congr 1
  funext a
  apply Fin.ext
  match a with
  | ⟨0, _⟩ => show win2_1.index t (0 : Fin 2) * 128 + 1 * k.val = k.val; rw [e0]; omega
  | ⟨1, _⟩ => show win2_1.index t (1 : Fin 2) * 64 + 1 * q.val = q.val; rw [e1]; omega

/-- WHAT TILE t WRITES BACK is tile t of the whole product of the two arrays as the region finds them. -/
theorem flushed_eq (c : Dev nD) (t : Fin cfg2.N) :
    (dat2 V c).flushed 2 t
      = ((cfg2.win 2).blk t).view.read (Elt Ideal) (Cert.Spec.rows128x64 (V c main_v44) (V c main_arg4)) := by
  show (cfg2.win 2).cut (grid2.coords t) ((dat2 V c).after 2 t) = _
  rw [after2_2]
  unfold out2_2
  rw [View.canon_unit_zero corner_zero]
  simp only [View.ld_unit_zero (S := S5000x128) corner_zero, View.ld_unit_zero (S := S128x64) corner_zero]
  obtain ⟨e0, e1, -, -, -, -⟩ := tile_index t
  funext j
  obtain ⟨p, q, rfl⟩ : ∃ (p : Fin 5000) (q : Fin 64), j = ix2 p q := ⟨j 0, j 1, eq_ix2 j⟩
  show k2_pay1 (iblk2 V c 0 t) (iblk2 V c 1 t) (ix2 p q)
    = Cert.Spec.rows128x64 (V c main_v44) (V c main_arg4) (((cfg2.win 2).blk t).view.emb (ix2 p q))
  refine (tile_product_apply _ _ p q).trans ?_
  unfold Cert.Spec.rows128x64
  refine Finset.sum_congr rfl fun k _ => ?_
  -- the entry's row in the result is t · 5000 + p, its column q
  have hrow : ((((cfg2.win 2).blk t).view.emb (ix2 p q)) 0).val = t.val * 5000 + p.val := by
    show win2_2.index t (0 : Fin 2) * 5000 + 1 * p.val = _
    rw [e0]; omega
  have hcol : ((((cfg2.win 2).blk t).view.emb (ix2 p q)) 1).val = q.val := by
    show win2_2.index t (1 : Fin 2) * 64 + 1 * q.val = _
    rw [e1]; omega
  rw [table_tile_apply V c t p k ⟨_, ((((cfg2.win 2).blk t).view.emb (ix2 p q)) 0).isLt⟩ hrow,
    weights_tile_apply V c t k q]
  have hq : (⟨((((cfg2.win 2).blk t).view.emb (ix2 p q)) 1).val, ((((cfg2.win 2).blk t).view.emb (ix2 p q)) 1).isLt⟩ : Fin 64) = q :=
    Fin.ext hcol
  rw [hq]

/-- A row-column pair of the result is in tile t iff each coordinate is in the tile's range on its axis. -/
theorem mem_tile (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v45).slice (win2_2.rect t)).set ↔ _
  rw [View.set_slice_whole, Rect.mem_set_unit]
  exact Iff.rfl

/-- THE TILES COVER THE RESULT: row r is in tile r / 5000, and every tile is written back. -/
theorem tiles_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, by show (i 0).val / 5000 < 20; omega⟩, rfl⟩
  obtain ⟨e0, e1, -, -, -, -⟩ := tile_index t
  refine ⟨t, flush2_2 t, ?_⟩
  rw [mem_tile]
  intro a
  match a with
  | ⟨0, _⟩ =>
    show win2_2.index t (0 : Fin 2) * 5000 ≤ (i 0).val ∧ (i 0).val < win2_2.index t (0 : Fin 2) * 5000 + 5000
    rw [e0, ht]; omega
  | ⟨1, _⟩ =>
    show win2_2.index t (1 : Fin 2) * 64 ≤ (i 1).val ∧ (i 1).val < win2_2.index t (1 : Fin 2) * 64 + 64
    rw [e1]; omega

/-- THE RESULT after the 20 tiles: the whole product of the hidden table and the weight matrix, entry by entry. -/
theorem final2 (c : Dev nD) : (dat2 V c).arrAt 2 cfg2.N = Cert.Spec.rows128x64 (V c main_v44) (V c main_arg4) :=
  (dat2 V c).arrAt_eq_of_cover 2 (Cert.Spec.rows128x64 (V c main_v44) (V c main_arg4))
    (fun t _ => flushed_eq V c t) tiles_cover

end Cert.KernelIdeal.Region2

end
-- ==== Proof.Region3.lean ====
/-
  Layer 2's epilogue, as the launch computes it: the 100000 rows are cut into 20 tiles of 5000 rows; at each tile the
  body adds the one bias row to every row of the tile. Every tile is written back once and the tiles fill the array, so
  the array the launch leaves is the whole-array function "bias added to every row" of the array it found and of the
  bias row.
-/
import proofs.«159361_j60902636257285_1_alg».proof.Proof.Gen.KernelIdeal.Frame
import proofs.«159361_j60902636257285_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The body at one entry of a tile -/

theorem zero_offset2 : (![0, 0] : Fin 2 → Nat) = fun _ => 0 := funext fun a => by fin_cases a <;> rfl

theorem zero_offset1 : (![0] : Fin 1 → Nat) = fun _ => 0 := funext fun a => by fin_cases a; rfl

/-- Entry (p, q) of what the body stores: the tile's entry plus the bias row's entry q. -/
theorem body_apply (b : Vec Ideal S64 .f32) (a : Vec Ideal S5000x64 .f32) (p : Fin 5000) (q : Fin 64) :
    k3_pay1 b a (ix2 p q) = a (ix2 p q) + b (ix1 q) := by
  unfold k3_pay1
  show shapeCast S5000x64 a shapeCasts_S5000x64_S5000x64 (ix2 p q)
      + broadcastTo S5000x64 (shapeCast S1x64 b shapeCasts_S64_S1x64) broadcasts_S1x64_S5000x64 (ix2 p q) = _
  rw [shapeCast_self, broadcastTo_1b_ab_apply, shapeCast_a_1a_apply]

/-- The same at any index of the tile, the bias row read at the index's column. -/
theorem body_apply_idx (b : Vec Ideal S64 .f32) (a : Vec Ideal S5000x64 .f32) (j : S5000x64.Idx) :
    k3_pay1 b a j = a j + b (ix1 (⟨(j 1).val, (j 1).isLt⟩ : Fin 64)) := by
  obtain ⟨p, q, rfl⟩ : ∃ (p : Fin 5000) (q : Fin 64), j = ix2 p q := ⟨j 0, j 1, eq_ix2 j⟩
  exact body_apply b a p q

/-! ## Where each tile sits -/

/-- The index maps over the 20 tiles: the node rows' tile and the output's tile are tile t of the rows, all columns;
    the bias row is read whole at every tile. -/
theorem tile_index : ∀ t : Fin cfg3.N, win3_2.index t (0 : Fin 2) = t.val ∧ win3_2.index t (1 : Fin 2) = 0
    ∧ win3_0.index t (0 : Fin 2) = t.val ∧ win3_0.index t (1 : Fin 2) = 0
    ∧ win3_1.index t (0 : Fin 1) = 0 :=
  (by decide +kernel : ∀ t : Fin grid3.N, _)

/-- Every one of the 20 row tiles is some point's. -/
theorem tile_onto : ∀ k : Fin 20, ∃ t : Fin cfg3.N, win3_2.index t (0 : Fin 2) = k.val ∧ win3_2.index t (1 : Fin 2) = 0 :=
  (by decide +kernel : ∀ k : Fin 20, ∃ t : Fin grid3.N, win3_2.index t (0 : Fin 2) = k.val ∧ win3_2.index t (1 : Fin 2) = 0)

/-- Tile t of the two arrays through the body, at an index of the tile, is the whole-array function at that index's
    place in the array: the node rows' tile and the output's tile sit at the same rows, and the bias row is whole. -/
theorem tile_apply (A : S100000x64.Idx → EReal) (B : S64.Idx → EReal) (t : Fin cfg3.N) (j : S5000x64.Idx) :
    k3_pay1 (F := Ideal) (fun k => B (((cfg3.win 1).blk t).view.emb k)) (fun k => A (((cfg3.win 0).blk t).view.emb k)) j
      = Cert.Spec.bias64 A B (((cfg3.win 2).blk t).view.emb j) := by
  obtain ⟨e0, e1, e2, e3, e4⟩ := tile_index t
  refine (body_apply_idx _ _ j).trans ?_
  unfold Cert.Spec.bias64
  show A (((cfg3.win 0).blk t).view.emb j) + B (((cfg3.win 1).blk t).view.emb (ix1 (⟨(j 1).val, (j 1).isLt⟩ : Fin 64)))
    = A (((cfg3.win 2).blk t).view.emb j) + B (ix1 (⟨((((cfg3.win 2).blk t).view.emb j) 1).val, ((((cfg3.win 2).blk t).view.emb j) 1).isLt⟩ : Fin 64))
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (ix1 (⟨(j 1).val, (j 1).isLt⟩ : Fin 64))
      = ix1 (⟨((((cfg3.win 2).blk t).view.emb j) 1).val, ((((cfg3.win 2).blk t).view.emb j) 1).isLt⟩ : Fin 64) := by
    funext a; apply Fin.ext
    match a with
    | ⟨0, _⟩ => show win3_1.index t (0 : Fin 1) * 64 + 1 * (j 1).val = win3_2.index t (1 : Fin 2) * 64 + 1 * (j 1).val; omega
  rw [h0, h1]

/-- WHAT TILE t WRITES BACK is tile t of the whole-array function of the arrays the launch finds. -/
theorem flushed_eq (c : Dev nD) (t : Fin cfg3.N) :
    (dat3 V c).flushed 2 t = ((cfg3.win 2).blk t).view.read (Elt Ideal) (Cert.Spec.bias64 (V c main_v58) (V c main_arg5)) := by
  show (cfg3.win 2).cut (grid3.coords t) ((dat3 V c).after 2 t) = _
  rw [after3_2]
  unfold out3_2
  rw [View.canon_unit_zero zero_offset2]
  simp only [View.ld_unit_zero (S := S5000x64) zero_offset2, View.ld_unit_zero (S := S64) zero_offset1]
  funext j
  exact tile_apply (V c main_v58) (V c main_arg5) t j

/-! ## The tiles fill the array -/

/-- A row-and-column index is in tile t iff each coordinate is in the tile's range on its axis. -/
theorem mem_tile (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v59).slice (win3_2.rect t)).set ↔ _
  rw [View.set_slice_whole, Rect.mem_set_unit]
  exact Iff.rfl

/-- Row r is in tile r / 5000, and every tile is written back. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, q0, q1⟩ := tile_onto ⟨(i 0).val / 5000, by omega⟩
  have q0' : win3_2.index t (0 : Fin 2) = (i 0).val / 5000 := q0
  refine ⟨t, flush3_2 t, ?_⟩
  rw [mem_tile]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- THE ARRAY after the launch: the bias row added to every row of the array it found. -/
theorem final3 (c : Dev nD) : (dat3 V c).arrAt 2 cfg3.N = Cert.Spec.bias64 (V c main_v58) (V c main_arg5) :=
  (dat3 V c).arrAt_eq_of_cover 2 (Cert.Spec.bias64 (V c main_v58) (V c main_arg5)) (fun t _ => flushed_eq V c t) cover

end Cert.KernelIdeal.Region3

end
-- ==== Proof.KernelValue.lean ====
/-
  The result array of the program with the launches, read through the boundaries of its run: the endpoints and edge weights
  the first host stretch computes, the first product (launch 1), its aggregation along the edges, the bias and clamp
  (launch 2), the second product (launch 3), its aggregation, the bias (launch 4). Each launch's array is the
  specification's whole-array function of the arrays the launch finds; each host stretch is the graph function of the
  buffers it reads; every other buffer is carried across unchanged. The composition is `Cert.Graph.twoLayers'` of the
  six argument arrays.
-/
import proofs.«159361_j60902636257285_1_alg».proof.Proof.Gen.KernelIdeal.Frame
import proofs.«159361_j60902636257285_1_alg».proof.Proof.KernelRun
import proofs.«159361_j60902636257285_1_alg».proof.Proof.HostValue
import proofs.«159361_j60902636257285_1_alg».proof.Proof.Layers
import proofs.«159361_j60902636257285_1_alg».proof.Proof.Region0
import proofs.«159361_j60902636257285_1_alg».proof.Proof.Region1
import proofs.«159361_j60902636257285_1_alg».proof.Proof.Region2
import proofs.«159361_j60902636257285_1_alg».proof.Proof.Region3

set_option maxRecDepth 16384

noncomputable section

namespace Cert.KernelIdeal.KernelValue

open Cert.KernelIdeal Cert.KernelIdeal.Gen Idealize.ShloMosaic Idealize.ShloMosaic.TcCoe Idealize.SL.Sem
open Cert.Graph Cert.KernelIdeal.HostValue

variable (m : (ℓ : Loc nD τ sig) → Buf (Elt Ideal) ℓ) (ρ : Dev nD → PrngReg)

/-! ## Before the first launch -/

theorem W1_src (c : Dev nD) : W1 m ρ c (Proc.devRef .tc main_v3) = srcOf (m ((c : Thread nD τ).loc main_arg1)) := s0_src (W0 m ρ c)
theorem W1_dst (c : Dev nD) : W1 m ρ c (Proc.devRef .tc main_v6) = dstOf (m ((c : Thread nD τ).loc main_arg1)) := s0_dst (W0 m ρ c)

/-- The per-node factor 1/sqrt(deg), zero at degree zero. -/
theorem W2_dinv (c : Dev nD) : W2 m ρ c (Proc.devRef .tc main_v14) = dinvOf (dstOf (m ((c : Thread nD τ).loc main_arg1))) := by
  refine (s1_dinv (W1 m ρ c)).trans ?_
  rw [show W1 m ρ c (Proc.devRef .tc main_v12) = _ from s0_pos (W0 m ρ c), show W1 m ρ c (Proc.devRef .tc main_v13) = _ from s0_rsqrt (W0 m ρ c),
    show W1 m ρ c (Proc.devRef .tc main_cst_2) = _ from s0_zero (W0 m ρ c)]
  rfl

theorem W2_src (c : Dev nD) : W2 m ρ c (Proc.devRef .tc main_v3) = srcOf (m ((c : Thread nD τ).loc main_arg1)) := (k1_v3 (W1 m ρ c)).trans (W1_src m ρ c)
theorem W2_dst (c : Dev nD) : W2 m ρ c (Proc.devRef .tc main_v6) = dstOf (m ((c : Thread nD τ).loc main_arg1)) := (k1_v6 (W1 m ρ c)).trans (W1_dst m ρ c)
theorem W3_src (c : Dev nD) : W3 m ρ c (Proc.devRef .tc main_v3) = srcOf (m ((c : Thread nD τ).loc main_arg1)) := (k2_v3 (W2 m ρ c)).trans (W2_src m ρ c)
theorem W3_dst (c : Dev nD) : W3 m ρ c (Proc.devRef .tc main_v6) = dstOf (m ((c : Thread nD τ).loc main_arg1)) := (k2_v6 (W2 m ρ c)).trans (W2_dst m ρ c)

/-- The edge weights. -/
theorem W3_norm (c : Dev nD) : W3 m ρ c (Proc.devRef .tc main_v29) = normOf (m ((c : Thread nD τ).loc main_arg1)) := by
  refine (s2_norm (W2 m ρ c)).trans ?_
  rw [W2_dinv m ρ c, W2_src m ρ c, W2_dst m ρ c]
  rfl

theorem W3_arg0 (c : Dev nD) : W3 m ρ c (Proc.devRef .tc main_arg0) = (m ((c : Thread nD τ).loc main_arg0)) :=
  (k2_arg0 (W2 m ρ c)).trans ((k1_arg0 (W1 m ρ c)).trans ((k0_arg0 (W0 m ρ c)).trans rfl))
theorem W3_arg2 (c : Dev nD) : W3 m ρ c (Proc.devRef .tc main_arg2) = (m ((c : Thread nD τ).loc main_arg2)) :=
  (k2_arg2 (W2 m ρ c)).trans ((k1_arg2 (W1 m ρ c)).trans ((k0_arg2 (W0 m ρ c)).trans rfl))
theorem W3_arg3 (c : Dev nD) : W3 m ρ c (Proc.devRef .tc main_arg3) = (m ((c : Thread nD τ).loc main_arg3)) :=
  (k2_arg3 (W2 m ρ c)).trans ((k1_arg3 (W1 m ρ c)).trans ((k0_arg3 (W0 m ρ c)).trans rfl))
theorem W3_arg4 (c : Dev nD) : W3 m ρ c (Proc.devRef .tc main_arg4) = (m ((c : Thread nD τ).loc main_arg4)) :=
  (k2_arg4 (W2 m ρ c)).trans ((k1_arg4 (W1 m ρ c)).trans ((k0_arg4 (W0 m ρ c)).trans rfl))
theorem W3_arg5 (c : Dev nD) : W3 m ρ c (Proc.devRef .tc main_arg5) = (m ((c : Thread nD τ).loc main_arg5)) :=
  (k2_arg5 (W2 m ρ c)).trans ((k1_arg5 (W1 m ρ c)).trans ((k0_arg5 (W0 m ρ c)).trans rfl))

/-! ## Launch 1 and the first aggregation -/

/-- The first product. -/
theorem W4_xw (c : Dev nD) : W4 m ρ c (Proc.devRef .tc main_v30) = (Cert.Spec.rows64x128 (m ((c : Thread nD τ).loc main_arg0)) (m ((c : Thread nD τ).loc main_arg2))) := by
  refine (W4_arr m ρ c 2).trans ((Cert.KernelIdeal.Region0.final0 (V3 m ρ) c).trans ?_)
  rw [show V3 m ρ c main_arg0 = _ from W3_arg0 m ρ c, show V3 m ρ c main_arg2 = _ from W3_arg2 m ρ c]

theorem W4_src (c : Dev nD) : W4 m ρ c (Proc.devRef .tc main_v3) = srcOf (m ((c : Thread nD τ).loc main_arg1)) := (W4_of_ne m ρ c main_v3 (by decide)).trans (W3_src m ρ c)
theorem W4_dst (c : Dev nD) : W4 m ρ c (Proc.devRef .tc main_v6) = dstOf (m ((c : Thread nD τ).loc main_arg1)) := (W4_of_ne m ρ c main_v6 (by decide)).trans (W3_dst m ρ c)
theorem W4_norm (c : Dev nD) : W4 m ρ c (Proc.devRef .tc main_v29) = normOf (m ((c : Thread nD τ).loc main_arg1)) := (W4_of_ne m ρ c main_v29 (by decide)).trans (W3_norm m ρ c)
theorem W4_arg3 (c : Dev nD) : W4 m ρ c (Proc.devRef .tc main_arg3) = (m ((c : Thread nD τ).loc main_arg3)) := (W4_of_ne m ρ c main_arg3 (by decide)).trans (W3_arg3 m ρ c)
theorem W4_arg4 (c : Dev nD) : W4 m ρ c (Proc.devRef .tc main_arg4) = (m ((c : Thread nD τ).loc main_arg4)) := (W4_of_ne m ρ c main_arg4 (by decide)).trans (W3_arg4 m ρ c)
theorem W4_arg5 (c : Dev nD) : W4 m ρ c (Proc.devRef .tc main_arg5) = (m ((c : Thread nD τ).loc main_arg5)) := (W4_of_ne m ρ c main_arg5 (by decide)).trans (W3_arg5 m ρ c)

/-- The first product aggregated along the edges. -/
theorem W5_agg (c : Dev nD) : W5 m ρ c (Proc.devRef .tc main_v43) = (agg128' (Cert.Spec.rows64x128 (m ((c : Thread nD τ).loc main_arg0)) (m ((c : Thread nD τ).loc main_arg2))) (srcOf (m ((c : Thread nD τ).loc main_arg1))) (dstOf (m ((c : Thread nD τ).loc main_arg1))) (normOf (m ((c : Thread nD τ).loc main_arg1)))) := by
  refine (s3_agg (W4 m ρ c)).trans ?_
  rw [W4_xw m ρ c, W4_src m ρ c, W4_dst m ρ c, W4_norm m ρ c]

theorem W5_src (c : Dev nD) : W5 m ρ c (Proc.devRef .tc main_v3) = srcOf (m ((c : Thread nD τ).loc main_arg1)) := (k3_v3 (W4 m ρ c)).trans (W4_src m ρ c)
theorem W5_dst (c : Dev nD) : W5 m ρ c (Proc.devRef .tc main_v6) = dstOf (m ((c : Thread nD τ).loc main_arg1)) := (k3_v6 (W4 m ρ c)).trans (W4_dst m ρ c)
theorem W5_norm (c : Dev nD) : W5 m ρ c (Proc.devRef .tc main_v29) = normOf (m ((c : Thread nD τ).loc main_arg1)) := (k3_v29 (W4 m ρ c)).trans (W4_norm m ρ c)
theorem W5_arg3 (c : Dev nD) : W5 m ρ c (Proc.devRef .tc main_arg3) = (m ((c : Thread nD τ).loc main_arg3)) := (k3_arg3 (W4 m ρ c)).trans (W4_arg3 m ρ c)
theorem W5_arg4 (c : Dev nD) : W5 m ρ c (Proc.devRef .tc main_arg4) = (m ((c : Thread nD τ).loc main_arg4)) := (k3_arg4 (W4 m ρ c)).trans (W4_arg4 m ρ c)
theorem W5_arg5 (c : Dev nD) : W5 m ρ c (Proc.devRef .tc main_arg5) = (m ((c : Thread nD τ).loc main_arg5)) := (k3_arg5 (W4 m ρ c)).trans (W4_arg5 m ρ c)

/-! ## Launches 2 and 3 -/

/-- The hidden features: bias and clamp. -/
theorem W6_hidden (c : Dev nD) : W6 m ρ c (Proc.devRef .tc main_v44) = (Cert.Spec.biasRelu128 (agg128' (Cert.Spec.rows64x128 (m ((c : Thread nD τ).loc main_arg0)) (m ((c : Thread nD τ).loc main_arg2))) (srcOf (m ((c : Thread nD τ).loc main_arg1))) (dstOf (m ((c : Thread nD τ).loc main_arg1))) (normOf (m ((c : Thread nD τ).loc main_arg1)))) (m ((c : Thread nD τ).loc main_arg3))) := by
  refine (W6_arr m ρ c 2).trans ((Cert.KernelIdeal.Region1.final1 (V5 m ρ) c).trans ?_)
  rw [show V5 m ρ c main_v43 = _ from W5_agg m ρ c, show V5 m ρ c main_arg3 = _ from W5_arg3 m ρ c]

theorem W6_src (c : Dev nD) : W6 m ρ c (Proc.devRef .tc main_v3) = srcOf (m ((c : Thread nD τ).loc main_arg1)) := (W6_of_ne m ρ c main_v3 (by decide)).trans (W5_src m ρ c)
theorem W6_dst (c : Dev nD) : W6 m ρ c (Proc.devRef .tc main_v6) = dstOf (m ((c : Thread nD τ).loc main_arg1)) := (W6_of_ne m ρ c main_v6 (by decide)).trans (W5_dst m ρ c)
theorem W6_norm (c : Dev nD) : W6 m ρ c (Proc.devRef .tc main_v29) = normOf (m ((c : Thread nD τ).loc main_arg1)) := (W6_of_ne m ρ c main_v29 (by decide)).trans (W5_norm m ρ c)
theorem W6_arg4 (c : Dev nD) : W6 m ρ c (Proc.devRef .tc main_arg4) = (m ((c : Thread nD τ).loc main_arg4)) := (W6_of_ne m ρ c main_arg4 (by decide)).trans (W5_arg4 m ρ c)
theorem W6_arg5 (c : Dev nD) : W6 m ρ c (Proc.devRef .tc main_arg5) = (m ((c : Thread nD τ).loc main_arg5)) := (W6_of_ne m ρ c main_arg5 (by decide)).trans (W5_arg5 m ρ c)

/-- The second product. -/
theorem W7_xw (c : Dev nD) : W7 m ρ c (Proc.devRef .tc main_v45) = (Cert.Spec.rows128x64 (Cert.Spec.biasRelu128 (agg128' (Cert.Spec.rows64x128 (m ((c : Thread nD τ).loc main_arg0)) (m ((c : Thread nD τ).loc main_arg2))) (srcOf (m ((c : Thread nD τ).loc main_arg1))) (dstOf (m ((c : Thread nD τ).loc main_arg1))) (normOf (m ((c : Thread nD τ).loc main_arg1)))) (m ((c : Thread nD τ).loc main_arg3))) (m ((c : Thread nD τ).loc main_arg4))) := by
  refine (W7_arr m ρ c 2).trans ((Cert.KernelIdeal.Region2.final2 (V6 m ρ) c).trans ?_)
  rw [show V6 m ρ c main_v44 = _ from W6_hidden m ρ c, show V6 m ρ c main_arg4 = _ from W6_arg4 m ρ c]

theorem W7_src (c : Dev nD) : W7 m ρ c (Proc.devRef .tc main_v3) = srcOf (m ((c : Thread nD τ).loc main_arg1)) := (W7_of_ne m ρ c main_v3 (by decide)).trans (W6_src m ρ c)
theorem W7_dst (c : Dev nD) : W7 m ρ c (Proc.devRef .tc main_v6) = dstOf (m ((c : Thread nD τ).loc main_arg1)) := (W7_of_ne m ρ c main_v6 (by decide)).trans (W6_dst m ρ c)
theorem W7_norm (c : Dev nD) : W7 m ρ c (Proc.devRef .tc main_v29) = normOf (m ((c : Thread nD τ).loc main_arg1)) := (W7_of_ne m ρ c main_v29 (by decide)).trans (W6_norm m ρ c)
theorem W7_arg5 (c : Dev nD) : W7 m ρ c (Proc.devRef .tc main_arg5) = (m ((c : Thread nD τ).loc main_arg5)) := (W7_of_ne m ρ c main_arg5 (by decide)).trans (W6_arg5 m ρ c)

/-! ## The second aggregation and launch 4 -/

/-- The second product aggregated along the edges. -/
theorem W8_agg (c : Dev nD) : W8 m ρ c (Proc.devRef .tc main_v58) = (agg64' (Cert.Spec.rows128x64 (Cert.Spec.biasRelu128 (agg128' (Cert.Spec.rows64x128 (m ((c : Thread nD τ).loc main_arg0)) (m ((c : Thread nD τ).loc main_arg2))) (srcOf (m ((c : Thread nD τ).loc main_arg1))) (dstOf (m ((c : Thread nD τ).loc main_arg1))) (normOf (m ((c : Thread nD τ).loc main_arg1)))) (m ((c : Thread nD τ).loc main_arg3))) (m ((c : Thread nD τ).loc main_arg4))) (srcOf (m ((c : Thread nD τ).loc main_arg1))) (dstOf (m ((c : Thread nD τ).loc main_arg1))) (normOf (m ((c : Thread nD τ).loc main_arg1)))) := by
  refine (s4_agg (W7 m ρ c)).trans ?_
  rw [W7_xw m ρ c, W7_src m ρ c, W7_dst m ρ c, W7_norm m ρ c]

theorem W8_arg5 (c : Dev nD) : W8 m ρ c (Proc.devRef .tc main_arg5) = (m ((c : Thread nD τ).loc main_arg5)) := (k4_arg5 (W7 m ρ c)).trans (W7_arg5 m ρ c)

/-- THE RESULT ARRAY at the end of the run: both layers of the six argument arrays. -/
theorem result (c : Dev nD) : W9 m ρ c (Proc.devRef .tc main_v59)
    = twoLayers' (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Cert.KernelIdeal.Region3.final3 (V8 m ρ) c).trans ?_)
  rw [show V8 m ρ c main_v58 = _ from W8_agg m ρ c, show V8 m ρ c main_arg5 = _ from W8_arg5 m ρ c]
  rfl

/-- The run of the program with the launches, its result array named: both layers of the argument arrays; the arguments as
    launched. -/
theorem kernel_run : θ_run defs (onTc (τ := τ) (main (F := Ideal))) ⟨m, fun _ => 0, ρ⟩ (fun r => ∀ c : Dev nD,
      r.2.mem ((c.tc : Thread nD τ).loc main_v59) = twoLayers' (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (Cert.KernelIdeal.GenP.run_named m ρ)

end Cert.KernelIdeal.KernelValue

end
-- ==== Proof.RefOps.lean ====
/-
  The host program's dense operations as the whole-array functions of the specification: a product of the node table with a
  weight matrix is, entry by entry, the sum over the contracted feature; a bias row broadcast over the rows and added
  (and clamped at zero) is, entry by entry, the entry plus the bias of its column (and the maximum with zero).
-/
import proofs.«159361_j60902636257285_1_alg».proof.Proof.Gen.ReferenceIdeal
import proofs.«159361_j60902636257285_1_alg».proof.Proof.Spec
import proofs.«159361_j60902636257285_1_alg».proof.Proof.LibRowDims
import Idealize.ShloMosaic.Lib.Pipeline.Value
import Idealize.ShloMosaic.Lib.ValueIdx
import Idealize.ShloMosaic.PureOps.Ideal.Laws

noncomputable section

namespace Cert.ReferenceIdeal.RefOps

open Cert.ReferenceIdeal Cert.ReferenceIdeal.Gen Idealize.ShloMosaic Idealize.ShloMosaic.TcCoe
open Idealize.ShloMosaic.ValueIdx Idealize.ShloMosaic.RowDims

/-! ## The two products -/

/-- Layer 1's product on the host: entry (p, q) is the sum over k of x (p, k) · w (k, q). -/
theorem dot1_eq (x : FVec Ideal S100000x64 .f32) (w : FVec Ideal S64x128 .f32) :
    Host.dotGeneral (F := Ideal) dot_S100000x64_S64x128_S100000x128_1_0_0_1_n_n none x w = Cert.Spec.rows64x128 x w := by
  funext i
  obtain ⟨p, q, rfl⟩ : ∃ (p : Fin 100000) (q : Fin 128), i = ix2 p q := ⟨i 0, i 1, eq_ix2 i⟩
  exact dotGeneral_plain_apply (M := 100000) (K := 64) (N := 128) none .single x w p q

/-- Layer 2's product on the host: entry (p, q) is the sum over k of h (p, k) · w (k, q). -/
theorem dot2_eq (h : FVec Ideal S100000x128 .f32) (w : FVec Ideal S128x64 .f32) :
    Host.dotGeneral (F := Ideal) dot_S100000x128_S128x64_S100000x64_1_0_0_1_n_n none h w = Cert.Spec.rows128x64 h w := by
  funext i
  obtain ⟨p, q, rfl⟩ : ∃ (p : Fin 100000) (q : Fin 64), i = ix2 p q := ⟨i 0, i 1, eq_ix2 i⟩
  exact dotGeneral_plain_apply (M := 100000) (K := 128) (N := 64) none .single h w p q

/-! ## The bias rows -/

/-- The index of the one-row table [1, 128] that entry `i` of the [100000, 128] broadcast reads. -/
abbrev rowOf128 (i : S100000x128.Idx) : S1x128.Idx := fun a => match a with
  | ⟨0, _⟩ => ⟨0, Nat.one_pos⟩
  | ⟨1, _⟩ => ⟨(i 1).val, (i 1).isLt⟩
/-- The index of the bias vector [128] that entry `j` of the one-row table reads. -/
abbrev colOf128 (j : S1x128.Idx) : S128.Idx := fun a => match a with
  | ⟨0, _⟩ => ⟨(j 1).val, (j 1).isLt⟩
abbrev rowOf64 (i : S100000x64.Idx) : S1x64.Idx := fun a => match a with
  | ⟨0, _⟩ => ⟨0, Nat.one_pos⟩
  | ⟨1, _⟩ => ⟨(i 1).val, (i 1).isLt⟩
abbrev colOf64 (j : S1x64.Idx) : S64.Idx := fun a => match a with
  | ⟨0, _⟩ => ⟨(j 1).val, (j 1).isLt⟩

/-- The 128-wide bias broadcast over the rows, read at an entry: the bias of the entry's column. -/
theorem biasRow128_apply (b : FVec Ideal S128 .f32) (i : S100000x128.Idx) :
    broadcastInDim S100000x128 ![0, 1] bcast_S1x128_S100000x128_0_1 (broadcastInDim S1x128 ![1] bcast_S128_S1x128_1 b) i
      = b (ix1 (⟨(i 1).val, (i 1).isLt⟩ : Fin 128)) := by
  generalize hy : broadcastInDim S1x128 ![1] bcast_S128_S1x128_1 b = y
  rw [broadcastInDim_apply _ bcast_S1x128_S100000x128_0_1 y i (rowOf128 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  subst hy
  rw [broadcastInDim_apply _ bcast_S128_S1x128_1 b (rowOf128 i) (colOf128 (rowOf128 i)) (fun a => match a with
    | ⟨0, _⟩ => by show (i 1).val = if (128 : Nat) = 1 then 0 else (i 1).val; rw [if_neg (by decide)])]
  refine congrArg b (funext fun a => ?_)
  match a with
  | ⟨0, _⟩ => rfl

/-- The 64-wide bias broadcast over the rows, read at an entry: the bias of the entry's column. -/
theorem biasRow64_apply (b : FVec Ideal S64 .f32) (i : S100000x64.Idx) :
    broadcastInDim S100000x64 ![0, 1] bcast_S1x64_S100000x64_0_1 (broadcastInDim S1x64 ![1] bcast_S64_S1x64_1 b) i
      = b (ix1 (⟨(i 1).val, (i 1).isLt⟩ : Fin 64)) := by
  generalize hy : broadcastInDim S1x64 ![1] bcast_S64_S1x64_1 b = y
  rw [broadcastInDim_apply _ bcast_S1x64_S100000x64_0_1 y i (rowOf64 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  subst hy
  rw [broadcastInDim_apply _ bcast_S64_S1x64_1 b (rowOf64 i) (colOf64 (rowOf64 i)) (fun a => match a with
    | ⟨0, _⟩ => by show (i 1).val = if (64 : Nat) = 1 then 0 else (i 1).val; rw [if_neg (by decide)])]
  refine congrArg b (funext fun a => ?_)
  match a with
  | ⟨0, _⟩ => rfl

/-- The zero table the clamp compares against, read at an entry. -/
theorem zeros128_apply (i : S100000x128.Idx) :
    broadcastInDim S100000x128 ![] bcast_S_S100000x128 (constant (F := Ideal) S_ .f32 0x00000000#32) i = (0 : EReal) := by
  rw [broadcastInDim_apply _ bcast_S_S100000x128 (constant (F := Ideal) S_ .f32 0x00000000#32) i (fun a => a.elim0) (fun a => a.elim0)]
  exact Ideal.ofBits_zero_f32

/-- Layer 1's epilogue on the host is the specification's: bias of the column added, maximum with zero. -/
theorem biasRelu_eq (a : FVec Ideal S100000x128 .f32) (b : FVec Ideal S128 .f32) :
    maximumf (addf a (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32)) = Cert.Spec.biasRelu128 a b := by
  funext i
  refine (maximumf_apply _ _ i).trans ?_
  rw [addf_apply, biasRow128_apply, zeros128_apply]
  rfl

/-- Layer 2's epilogue on the host is the specification's: bias of the column added. -/
theorem bias_eq (a : FVec Ideal S100000x64 .f32) (b : FVec Ideal S64 .f32) :
    addf a (broadcastInDim S100000x64 ![0, 1] bcast_S1x64_S100000x64_0_1 (broadcastInDim S1x64 ![1] bcast_S64_S1x64_1 b)) = Cert.Spec.bias64 a b := by
  funext i
  refine (addf_apply _ _ i).trans ?_
  rw [biasRow64_apply]
  rfl

end Cert.ReferenceIdeal.RefOps

end
-- ==== Proof.RefValue.lean ====
/-
  The host program's result term is both layers of its six argument arrays: first as the host operations spell them (the
  term's subterms named by the graph functions), then with the dense operations read as the specification's whole-array
  functions.
-/
import proofs.«159361_j60902636257285_1_alg».proof.Proof.RefRun
import proofs.«159361_j60902636257285_1_alg».proof.Proof.Layers
import proofs.«159361_j60902636257285_1_alg».proof.Proof.RefOps

set_option maxRecDepth 16384

noncomputable section

namespace Cert.ReferenceIdeal.RefValue

open Cert.ReferenceIdeal Cert.ReferenceIdeal.Gen Idealize.ShloMosaic Idealize.ShloMosaic.TcCoe Idealize.SL.Sem
open Cert.Graph

section
variable {F : FTy → Type} [FloatOps F]

set_option maxHeartbeats 4000000 in
/-- The composed term of the run is the two layers as the host spells them: the same operations, subterm by subterm. -/
theorem res_eq_layers (m : (ℓ : Loc nD τ sig) → Buf (Elt F) ℓ) (c : Dev nD) :
    Cert.ReferenceIdeal.ValueP.res_main_v94 m c = layers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v94 layers agg64 agg128 normOf dinvOf degOf srcOf dstOf wrapCol col colF
  rfl

end

/-- Over the extended reals the host's result is both layers in the specification's terms. -/
theorem res_eq (m : (ℓ : Loc nD τ sig) → Buf (Elt Ideal) ℓ) (c : Dev nD) :
    Cert.ReferenceIdeal.ValueP.res_main_v94 m c = twoLayers (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [res_eq_layers]
  unfold layers twoLayers
  rw [Cert.ReferenceIdeal.RefOps.dot1_eq, Cert.ReferenceIdeal.RefOps.biasRelu_eq, Cert.ReferenceIdeal.RefOps.dot2_eq, Cert.ReferenceIdeal.RefOps.bias_eq]

end Cert.ReferenceIdeal.RefValue

end
-- ==== Proof.lean ====
/-
  The certificate of the two-layer graph convolution: the program with four launches (two row-tiled products and two bias
  epilogues, the gathers and scatter-adds along the edges on the host between them) against the host program.
  Over the extended reals both compute, for the node table x, the edge list e and the weights W1, b1, W2, b2,
      out = A · (relu (A · (x W1) + b1) W2) + b2,
  where A aggregates a node table along the edges (with self loops) under the symmetric degree normalisation. The launches'
  arrays are the whole-array functions of `Cert.Spec` (the row tiling does not show: an entry depends on its own row only;
  the narrowing of the products' operands to 16 bits is the identity over the extended reals), the host operations are the
  same on both sides (`Cert.Graph`), and the one difference — the order of the two factors of the edge-weighted product —
  vanishes because multiplication of extended reals is commutative. No finiteness of the inputs is used.
  The three frames: the two programs with launches by their generated frame certificates, the host program by its run with
  the result dropped. The idealisation rewrote nothing, so `preserves` is trivial.
-/
import proofs.«159361_j60902636257285_1_alg».proof.Defs
import proofs.«159361_j60902636257285_1_alg».proof.Proof.Gen.Kernel
import proofs.«159361_j60902636257285_1_alg».proof.Proof.Gen.Kernel.Frame
import proofs.«159361_j60902636257285_1_alg».proof.Proof.Gen.KernelIdeal
import proofs.«159361_j60902636257285_1_alg».proof.Proof.Gen.KernelIdeal.Frame
import proofs.«159361_j60902636257285_1_alg».proof.Proof.Gen.ReferenceIdeal
import proofs.«159361_j60902636257285_1_alg».proof.Proof.Gen.Pre_finite_inputs
import proofs.«159361_j60902636257285_1_alg».proof.Proof.KernelValue
import proofs.«159361_j60902636257285_1_alg».proof.Proof.RefRun
import proofs.«159361_j60902636257285_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The host program's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the six arguments both programs end with the same array: both layers of the arguments, the
    edge-weighted products' factors in either order. -/
theorem algebraic : Cert.algebraic_KernelIdeal_ReferenceIdeal := by
  intro m ρ m' ρ' _ hagree
  refine ⟨_, Cert.KernelIdeal.KernelValue.kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.RefValue.res_eq m' c, (hagree c).1, (hagree c).2.1, (hagree c).2.2.1, (hagree c).2.2.2.1,
    (hagree c).2.2.2.2.1, (hagree c).2.2.2.2.2]
  exact (Cert.Graph.twoLayers'_eq _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
